-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x49x64 : Shape := ⟨4, ![256, 16, 49, 64]⟩
abbrev S_ : Shape := ⟨0, ![]⟩

class Facts : Prop where
  bcast_S_S256x16x49x64 : S_.BroadcastsInDim S256x16x49x64 (![] : Fin 0 → Fin S256x16x49x64.rank)
  reducesTo_S256x16x49x64_S_d0_1_2_3 : S256x16x49x64.ReducesTo [0, 1, 2, 3] S_
  h_S_ : 0 < S_.numel

variable [Facts]

def fn {F : FTy → Type} [FloatOps F] (main_arg0 : FVec F S256x16x49x64 .f32) (main_arg1 : FVec F S256x16x49x64 .f32) (main_arg2 : FVec F S256x16x49x64 .f32) : IVec S_ 1 :=
  let main_v0 : FVec F S256x16x49x64 .f32 := Host.absf main_arg0
  let main_cst : FVec F S_ .f32 := constant S_ .f32 0x7F800000#32
  let main_v1 : FVec F S256x16x49x64 .f32 := broadcastInDim S256x16x49x64 ![] bcast_S_S256x16x49x64 main_cst
  let main_v2 : IVec S256x16x49x64 1 := cmpf .olt main_v0 main_v1
  let main_c : IVec S_ 1 := constantI S_ 1 1#1
  let main_v3 : IVec S_ 1 := (fun x v => Host.reduce IntOp.andi x v reducesTo_S256x16x49x64_S_d0_1_2_3 h_S_) main_v2 main_c
  let main_v4 : FVec F S256x16x49x64 .f32 := Host.absf main_arg1
  let main_cst_0 : FVec F S_ .f32 := constant S_ .f32 0x7F800000#32
  let main_v5 : FVec F S256x16x49x64 .f32 := broadcastInDim S256x16x49x64 ![] bcast_S_S256x16x49x64 main_cst_0
  let main_v6 : IVec S256x16x49x64 1 := cmpf .olt main_v4 main_v5
  let main_c_1 : IVec S_ 1 := constantI S_ 1 1#1
  let main_v7 : IVec S_ 1 := (fun x v => Host.reduce IntOp.andi x v reducesTo_S256x16x49x64_S_d0_1_2_3 h_S_) main_v6 main_c_1
  let main_v8 : IVec S_ 1 := andi main_v3 main_v7
  let main_v9 : FVec F S256x16x49x64 .f32 := Host.absf main_arg2
  let main_cst_2 : FVec F S_ .f32 := constant S_ .f32 0x7F800000#32
  let main_v10 : FVec F S256x16x49x64 .f32 := broadcastInDim S256x16x49x64 ![] bcast_S_S256x16x49x64 main_cst_2
  let main_v11 : IVec S256x16x49x64 1 := cmpf .olt main_v9 main_v10
  let main_c_3 : IVec S_ 1 := constantI S_ 1 1#1
  let main_v12 : IVec S_ 1 := (fun x v => Host.reduce IntOp.andi x v reducesTo_S256x16x49x64_S_d0_1_2_3 h_S_) main_v11 main_c_3
  let main_v13 : IVec S_ 1 := andi main_v8 main_v12
  main_v13
-- ==== Kernel.lean ====
abbrev S256x16x49x64 : Shape := ⟨4, ![256, 16, 49, 64]⟩
abbrev S4096x49x64 : Shape := ⟨3, ![4096, 49, 64]⟩
abbrev S256x49x64 : Shape := ⟨3, ![256, 49, 64]⟩
abbrev S256x49x49 : Shape := ⟨3, ![256, 49, 49]⟩
abbrev S256x49 : Shape := ⟨2, ![256, 49]⟩
abbrev S256x49x1 : Shape := ⟨3, ![256, 49, 1]⟩

abbrev nBuf : Space → Nat
  | .hbm => 8
  | .vmem => 8
  | .smem => 0
  | _ => 0

abbrev bufTy : (tb : Table) → Fin (tcTables nBuf tb) → BufTy
  | .hbm, ⟨0, _⟩ => ⟨S256x16x49x64, .f32⟩
  | .hbm, ⟨1, _⟩ => ⟨S256x16x49x64, .f32⟩
  | .hbm, ⟨2, _⟩ => ⟨S256x16x49x64, .f32⟩
  | .hbm, ⟨3, _⟩ => ⟨S4096x49x64, .f32⟩
  | .hbm, ⟨4, _⟩ => ⟨S4096x49x64, .f32⟩
  | .hbm, ⟨5, _⟩ => ⟨S4096x49x64, .f32⟩
  | .hbm, ⟨6, _⟩ => ⟨S4096x49x64, .f32⟩
  | .hbm, ⟨7, _⟩ => ⟨S256x16x49x64, .f32⟩
  | .local _ .vmem, ⟨0, _⟩ => ⟨S256x49x64, .f32⟩
  | .local _ .vmem, ⟨1, _⟩ => ⟨S256x49x64, .f32⟩
  | .local _ .vmem, ⟨2, _⟩ => ⟨S256x49x64, .f32⟩
  | .local _ .vmem, ⟨3, _⟩ => ⟨S256x49x64, .f32⟩
  | .local _ .vmem, ⟨4, _⟩ => ⟨S256x49x64, .f32⟩
  | .local _ .vmem, ⟨5, _⟩ => ⟨S256x49x64, .f32⟩
  | .local _ .vmem, ⟨6, _⟩ => ⟨S256x49x64, .f32⟩
  | .local _ .vmem, ⟨7, _⟩ => ⟨S256x49x64, .f32⟩
  | _, _ => ⟨S256x16x49x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x49x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x49x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x49x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x49x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x16x49x64_S4096x49x64 : S256x16x49x64.ShapeCasts S4096x49x64
  inb_S256x49x64_S256x49x64_0_0_0 : ∀ a, (![0, 0, 0] : Fin 3 → Nat) a + S256x49x64.size a ≤ S256x49x64.size a
  h_S256x49x64 : 0 < S256x49x64.numel
  shapeCasts_S256x49x64_S256x49x64 : S256x49x64.ShapeCasts S256x49x64
  bitsLt_bf16_f32 : FTy.bits .bf16 < FTy.bits .f32
  reduces_S256x49x49_S256x49 : S256x49x49.Reduces [2] S256x49
  shapeCasts_S256x49_S256x49x1 : S256x49.ShapeCasts S256x49x1
  broadcasts_S256x49x1_S256x49x49 : S256x49x1.Broadcasts S256x49x49
  shapeCasts_S4096x49x64_S256x16x49x64 : S4096x49x64.ShapeCasts S256x16x49x64
  dot_S256x49x64_S256x49x64_S256x49x49_2_2_1_1_0_0_wf : DotDims.WF S256x49x64 S256x49x64 S256x49x49 [2] [2] [1] [1] [0] [0]
  dot_S256x49x49_S256x49x64_S256x49x64_2_1_1_2_0_0_wf : DotDims.WF S256x49x49 S256x49x64 S256x49x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x49x64.size a ≤ S4096x49x64.size a
  hwx0_0 : ∀ i : grid0.Coords, EltTy.bits .f32 = 32 ∨ (Rect.block (s := S4096x49x64) S256x49x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x49x64.size a ≤ S4096x49x64.size a
  hwx0_1 : ∀ i : grid0.Coords, EltTy.bits .f32 = 32 ∨ (Rect.block (s := S4096x49x64) S256x49x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x49x64.size a ≤ S4096x49x64.size a
  hwx0_2 : ∀ i : grid0.Coords, EltTy.bits .f32 = 32 ∨ (Rect.block (s := S4096x49x64) S256x49x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x49x64.size a ≤ S4096x49x64.size a
  hwx0_3 : ∀ i : grid0.Coords, EltTy.bits .f32 = 32 ∨ (Rect.block (s := S4096x49x64) S256x49x64.size (cc0_transform_3 i) (hinb0_3 i)).WholeWords (EltTy.packing .f32)

variable [Facts₀]

def dot_S256x49x64_S256x49x64_S256x49x49_2_2_1_1_0_0 : DotDims S256x49x64 S256x49x64 S256x49x49 where
  lhsContracting := [2]
  rhsContracting := [2]
  lhsNonContracting := [1]
  rhsNonContracting := [1]
  lhsBatch := [0]
  rhsBatch := [0]
  wf := dot_S256x49x64_S256x49x64_S256x49x49_2_2_1_1_0_0_wf
def dot_S256x49x49_S256x49x64_S256x49x64_2_1_1_2_0_0 : DotDims S256x49x49 S256x49x64 S256x49x64 where
  lhsContracting := [2]
  rhsContracting := [1]
  lhsNonContracting := [1]
  rhsNonContracting := [2]
  lhsBatch := [0]
  rhsBatch := [0]
  wf := dot_S256x49x49_S256x49x64_S256x49x64_2_1_1_2_0_0_wf

abbrev win0_0 : Pipeline.Window sig grid0 :=
  Pipeline.Window.ofSpec (Memref.whole main_v0) S256x49x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x49x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x49x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x49x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x16x49x64 : Shape := ⟨4, ![256, 16, 49, 64]⟩
abbrev S256x16x49x49 : Shape := ⟨4, ![256, 16, 49, 49]⟩
abbrev S_ : Shape := ⟨0, ![]⟩
abbrev S256x16x49 : Shape := ⟨3, ![256, 16, 49]⟩
abbrev S256x16x49x1 : Shape := ⟨4, ![256, 16, 49, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x16x49x64, .f32⟩
  | .hbm, ⟨1, _⟩ => ⟨S256x16x49x64, .f32⟩
  | .hbm, ⟨2, _⟩ => ⟨S256x16x49x64, .f32⟩
  | .hbm, ⟨3, _⟩ => ⟨S256x16x49x49, .f32⟩
  | .hbm, ⟨4, _⟩ => ⟨S_, .f32⟩
  | .hbm, ⟨5, _⟩ => ⟨S256x16x49x49, .f32⟩
  | .hbm, ⟨6, _⟩ => ⟨S256x16x49x49, .f32⟩
  | .hbm, ⟨7, _⟩ => ⟨S_, .f32⟩
  | .hbm, ⟨8, _⟩ => ⟨S256x16x49, .f32⟩
  | .hbm, ⟨9, _⟩ => ⟨S256x16x49x1, .f32⟩
  | .hbm, ⟨10, _⟩ => ⟨S256x16x49x49, .f32⟩
  | .hbm, ⟨11, _⟩ => ⟨S256x16x49x49, .f32⟩
  | .hbm, ⟨12, _⟩ => ⟨S256x16x49x49, .f32⟩
  | .hbm, ⟨13, _⟩ => ⟨S_, .f32⟩
  | .hbm, ⟨14, _⟩ => ⟨S256x16x49, .f32⟩
  | .hbm, ⟨15, _⟩ => ⟨S256x16x49x1, .f32⟩
  | .hbm, ⟨16, _⟩ => ⟨S_, .f32⟩
  | .hbm, ⟨17, _⟩ => ⟨S256x16x49x1, .f32⟩
  | .hbm, ⟨18, _⟩ => ⟨S256x16x49x1, .f32⟩
  | .hbm, ⟨19, _⟩ => ⟨S256x16x49x49, .f32⟩
  | .hbm, ⟨20, _⟩ => ⟨S256x16x49x49, .f32⟩
  | .hbm, ⟨21, _⟩ => ⟨S256x16x49x64, .f32⟩
  | _, _ => ⟨S256x16x49x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S256x16x49x49 : S_.BroadcastsInDim S256x16x49x49 (![] : Fin 0 → Fin S256x16x49x49.rank)
  reducesTo_S256x16x49x49_S256x16x49_d3 : S256x16x49x49.ReducesTo [3] S256x16x49
  h_S_ : 0 < S_.numel
  bcast_S256x16x49_S256x16x49x1_0_1_2 : S256x16x49.BroadcastsInDim S256x16x49x1 (![0, 1, 2] : Fin 3 → Fin S256x16x49x1.rank)
  bcast_S256x16x49x1_S256x16x49x49_0_1_2_3 : S256x16x49x1.BroadcastsInDim S256x16x49x49 (![0, 1, 2, 3] : Fin 4 → Fin S256x16x49x49.rank)
  bcast_S_S256x16x49x1 : S_.BroadcastsInDim S256x16x49x1 (![] : Fin 0 → Fin S256x16x49x1.rank)
  dot_S256x16x49x64_S256x16x49x64_S256x16x49x49_3_3_2_2_01_01_wf : DotDims.WF S256x16x49x64 S256x16x49x64 S256x16x49x49 [3] [3] [2] [2] [0, 1] [0, 1]
  dot_S256x16x49x49_S256x16x49x64_S256x16x49x64_3_2_2_3_01_01_wf : DotDims.WF S256x16x49x49 S256x16x49x64 S256x16x49x64 [3] [2] [2] [3] [0, 1] [0, 1]

variable [Facts₀]

def dot_S256x16x49x64_S256x16x49x64_S256x16x49x49_3_3_2_2_01_01 : DotDims S256x16x49x64 S256x16x49x64 S256x16x49x49 where
  lhsContracting := [3]
  rhsContracting := [3]
  lhsNonContracting := [2]
  rhsNonContracting := [2]
  lhsBatch := [0, 1]
  rhsBatch := [0, 1]
  wf := dot_S256x16x49x64_S256x16x49x64_S256x16x49x49_3_3_2_2_01_01_wf
def dot_S256x16x49x49_S256x16x49x64_S256x16x49x64_3_2_2_3_01_01 : DotDims S256x16x49x49 S256x16x49x64 S256x16x49x64 where
  lhsContracting := [3]
  rhsContracting := [2]
  lhsNonContracting := [2]
  rhsNonContracting := [3]
  lhsBatch := [0, 1]
  rhsBatch := [0, 1]
  wf := dot_S256x16x49x49_S256x16x49x64_S256x16x49x64_3_2_2_3_01_01_wf

class Facts : Prop extends Facts₀ where

variable [Facts]
-- ==== Proof.AttnSpec.lean ====
/-
  One (batch, head) row of scaled-dot-product attention with a guarded softmax, over the extended reals.

  For a 49 × 64 query matrix `Q`, key matrix `K` and value matrix `V`:
    score q k  = (∑ d, Q q d · K k d) · 1/8
    rowMax q   = max over k of score q k           (starting from -∞)
    weight q k = exp (score q k - rowMax q)
    denom q    = (∑ k, weight q k) + ε             (ε the f32 nearest 1e-9)
    attn q d   = ∑ k, (weight q k / denom q) · V k d
  Every operation is the exact one on `EReal`; the three literals are kept as the f32 words both programs print,
  so neither is ever evaluated. Both the kernel's block payload and the reference's composed term are this
  function of one row of their operands; nothing here depends on either program.
-/
import Idealize.ShloMosaic.PureOps.Ideal
import Idealize.ShloMosaic.PureOps.Ideal.Laws
import Idealize.ShloMosaic.Lib.ValueIdx

noncomputable section

open scoped BigOperators

namespace Cert.Attn

open Idealize.ShloMosaic

/-- The scale 1/8 = 1/√64, as the f32 word. -/
abbrev scaleW : BitVec 32 := 0x3E000000#32
/-- -∞, the start of the row maximum. -/
abbrev negInfW : BitVec 32 := 0xFF800000#32
/-- The guard added to the softmax denominator. -/
abbrev epsW : BitVec 32 := 0x3089705F#32

/-- Scaled dot product of query row `q` with key row `k`. -/
def score (Q K : Fin 49 → Fin 64 → EReal) (q k : Fin 49) : EReal :=
  (∑ d : Fin 64, Q q d * K k d) * Ideal.ofBits .f32 scaleW

/-- The largest score of query row `q`. -/
def rowMax (Q K : Fin 49 → Fin 64 → EReal) (q : Fin 49) : EReal :=
  (Finset.univ : Finset (Fin 49)).fold max (Ideal.ofBits .f32 negInfW) (fun k => score Q K q k)

/-- The unnormalised softmax weight of key `k` for query `q`. -/
def weight (Q K : Fin 49 → Fin 64 → EReal) (q k : Fin 49) : EReal :=
  Ideal.exp (score Q K q k - rowMax Q K q)

/-- The guarded normaliser of query row `q`. -/
def denom (Q K : Fin 49 → Fin 64 → EReal) (q : Fin 49) : EReal :=
  (∑ k : Fin 49, weight Q K q k) + Ideal.ofBits .f32 epsW

/-- The attention output at query `q`, feature `d`. -/
def attn (Q K V : Fin 49 → Fin 64 → EReal) (q : Fin 49) (d : Fin 64) : EReal :=
  ∑ k : Fin 49, Ideal.div (weight Q K q k) (denom Q K q) * V k d

/-- `attn` sees its operands only through their entries. -/
theorem attn_congr {Q K V Q' K' V' : Fin 49 → Fin 64 → EReal} (hQ : ∀ q d, Q q d = Q' q d) (hK : ∀ k d, K k d = K' k d)
    (hV : ∀ k d, V k d = V' k d) (q : Fin 49) (d : Fin 64) : attn Q K V q d = attn Q' K' V' q d := by
  have eQ : Q = Q' := funext fun q => funext fun d => hQ q d
  have eK : K = K' := funext fun k => funext fun d => hK k d
  have eV : V = V' := funext fun k => funext fun d => hV k d
  rw [eQ, eK, eV]

/-- THE RESULT ARRAY both programs compute: entry (b, h, q, d) is the attention of the (b, h) matrices of the three
    [256, 16, 49, 64] arguments at (q, d). -/
def result (a0 a1 a2 : (⟨4, ![256, 16, 49, 64]⟩ : Shape).Idx → EReal) : (⟨4, ![256, 16, 49, 64]⟩ : Shape).Idx → EReal := fun i =>
  attn (fun r d => a0 (ValueIdx.ix4 (i 0) (i 1) r d)) (fun r d => a1 (ValueIdx.ix4 (i 0) (i 1) r d))
    (fun r d => a2 (ValueIdx.ix4 (i 0) (i 1) r d)) (i 2) (i 3)

end Cert.Attn

end
-- ==== Proof.RefIsAttn.lean ====
/-
  The reference, read at one index: entry (b, h, q, d) of its result is `Attn.attn` of the (b, h) matrices of its
  three arguments at (q, d). Each host operation is read where the next one needs it: the two `dot_general`s as sums
  over the contracted axis, the add-reduce as the initial zero plus the sum over the keys, the max-reduce — the one
  stage the generated reading leaves out — as the fold of `max` from -∞ over the keys, and every broadcast back at
  the index it copies from.
-/
import proofs.«117145_j25056839205158_1_alg».proof.Proof.Gen.ReferenceIdeal.Read
import proofs.«117145_j25056839205158_1_alg».proof.Proof.AttnSpec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-- The (b, h) matrix of a [256, 16, 49, 64] argument. -/
abbrev mat (x : (⟨S256x16x49x64, .f32⟩ : BufTy).Contents (Elt Ideal)) (b : Fin 256) (h : Fin 16) : Fin 49 → Fin 64 → EReal :=
  fun r d => x (ix4 b h r d)

/-! ## The indices the generated reading composes, at coordinates -/

theorem lidx0 (b : Fin 256) (h : Fin 16) (q k : Fin 49) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)
theorem ridx0 (b : Fin 256) (h : Fin 16) (q k : Fin 49) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)
theorem idx4 (b : Fin 256) (h : Fin 16) (q : Fin 49) (z : Fin 1) : idx_main_v4 (ix4 b h q z) = ix3 b h q :=
  funext fun a => Fin.ext (by match a with | ⟨0, _⟩ => rfl | ⟨1, _⟩ => rfl | ⟨2, _⟩ => rfl)
theorem idx5 (b : Fin 256) (h : Fin 16) (q k : Fin 49) : idx_main_v5 (ix4 b h q k) = ix4 b h q 0 :=
  funext fun a => Fin.ext (by match a with | ⟨0, _⟩ => rfl | ⟨1, _⟩ => rfl | ⟨2, _⟩ => rfl | ⟨3, _⟩ => rfl)
theorem idx8 (b : Fin 256) (h : Fin 16) (q k : Fin 49) : idx_main_v8 (ix3 b h q) k = ix4 b h q k :=
  funext fun a => Fin.ext (by match a with | ⟨0, _⟩ => rfl | ⟨1, _⟩ => rfl | ⟨2, _⟩ => rfl | ⟨3, _⟩ => rfl)
theorem idx9 (b : Fin 256) (h : Fin 16) (q : Fin 49) (z : Fin 1) : idx_main_v9 (ix4 b h q z) = ix3 b h q :=
  funext fun a => Fin.ext (by match a with | ⟨0, _⟩ => rfl | ⟨1, _⟩ => rfl | ⟨2, _⟩ => rfl)
theorem idx12 (b : Fin 256) (h : Fin 16) (q k : Fin 49) : idx_main_v12 (ix4 b h q k) = ix4 b h q 0 :=
  funext fun a => Fin.ext (by match a with | ⟨0, _⟩ => rfl | ⟨1, _⟩ => rfl | ⟨2, _⟩ => rfl | ⟨3, _⟩ => rfl)
theorem lidx14 (b : Fin 256) (h : Fin 16) (q : Fin 49) (d : Fin 64) (k : Fin 49) : lidx_main_v14 (ix4 b h q d) k = ix4 b h q k :=
  funext fun a => Fin.ext (by match a with | ⟨0, _⟩ => rfl | ⟨1, _⟩ => rfl | ⟨2, _⟩ => rfl | ⟨3, _⟩ => rfl)
theorem ridx14 (b : Fin 256) (h : Fin 16) (q : Fin 49) (d : Fin 64) (k : Fin 49) : ridx_main_v14 (ix4 b h q d) k = ix4 b h k d :=
  funext fun a => Fin.ext (by match a with | ⟨0, _⟩ => rfl | ⟨1, _⟩ => rfl | ⟨2, _⟩ => rfl | ⟨3, _⟩ => rfl)

/-! ## The stages -/

variable (x0 x1 x2 : (⟨S256x16x49x64, .f32⟩ : BufTy).Contents (Elt Ideal))

/-- The scaled score at (b, h, q, k). -/
theorem score_apply (b : Fin 256) (h : Fin 16) (q k : Fin 49) :
    val_main_v2 (F := Ideal) x0 x1 (ix4 b h q k) = Cert.Attn.score (mat x0 b h) (mat x1 b h) q k := by
  rw [val_main_v2_apply, val_main_v0_apply, val_main_v1_apply, val_main_cst_apply]
  unfold Cert.Attn.score
  show (∑ d : Fin 64, x0 (lidx_main_v0 (ix4 b h q k) d) * x1 (ridx_main_v0 (ix4 b h q k) d)) * Ideal.ofBits .f32 0x3E000000#32 = _
  refine congrArg (· * Ideal.ofBits .f32 0x3E000000#32) ?_
  exact Finset.sum_congr rfl fun d _ => by rw [lidx0, ridx0]

/-- The coordinates of a reduced index (b, h, q) with the key `k` put back. -/
theorem lift_key (hr : S256x16x49x49.Reduces [3] S256x16x49) (b : Fin 256) (h : Fin 16) (q k : Fin 49) :
    hr.lift (ix3 b h q) k = ix4 b h q k :=
  funext fun a => Fin.ext (by match a with | ⟨0, _⟩ => rfl | ⟨1, _⟩ => rfl | ⟨2, _⟩ => rfl | ⟨3, _⟩ => rfl)

/-- The max-reduce at (b, h, q): `max` commutes and associates, so the reduction is the fold over the keys. -/
theorem max_apply (b : Fin 256) (h : Fin 16) (q : Fin 49) :
    val_main_v3 (F := Ideal) x0 x1 (ix3 b h q) = Cert.Attn.rowMax (mat x0 b h) (mat x1 b h) q := by
  unfold val_main_v3 Cert.Attn.rowMax
  have hr : S256x16x49x49.Reduces [3] S256x16x49 := by decide
  refine (Host.reduce_eq_fold_single (FloatOps.maximumf (F := Ideal) (φ := .f32)) (val_main_v2 (F := Ideal) x0 x1) (val_main_cst_0 (F := Ideal))
    reducesTo_S256x16x49x49_S256x16x49_d3 hr h_S_ (ix3 b h q)).trans ?_
  have e : (val_main_v2 (F := Ideal) x0 x1 ∘ hr.lift (ix3 b h q)) = fun k : Fin 49 => Cert.Attn.score (mat x0 b h) (mat x1 b h) q k :=
    funext fun k : Fin 49 => (congrArg (val_main_v2 (F := Ideal) x0 x1) (lift_key hr b h q k)).trans (score_apply x0 x1 b h q k)
  rw [e]
  rfl

/-- The softmax weight at (b, h, q, k). -/
theorem weight_apply (b : Fin 256) (h : Fin 16) (q k : Fin 49) :
    val_main_v7 (F := Ideal) x0 x1 (ix4 b h q k) = Cert.Attn.weight (mat x0 b h) (mat x1 b h) q k := by
  rw [val_main_v7_apply, val_main_v6_apply, val_main_v5_apply, idx5, val_main_v4_apply, idx4, max_apply, score_apply]
  rfl

/-- The guarded normaliser at (b, h, q, 0). -/
theorem denom_apply (b : Fin 256) (h : Fin 16) (q : Fin 49) (z : Fin 1) :
    val_main_v11 (F := Ideal) x0 x1 (ix4 b h q z) = Cert.Attn.denom (mat x0 b h) (mat x1 b h) q := by
  rw [val_main_v11_apply, val_main_v9_apply, idx9, val_main_v8_apply, val_main_v10_apply, val_main_cst_1_apply, val_main_cst_2_apply]
  unfold Cert.Attn.denom
  show (Ideal.ofBits .f32 0x00000000#32 + ∑ k : Fin 49, val_main_v7 (F := Ideal) x0 x1 (idx_main_v8 (ix3 b h q) k)) + Ideal.ofBits .f32 0x3089705F#32 = _
  rw [Ideal.ofBits_zero_f32, zero_add]
  refine congrArg (· + Ideal.ofBits .f32 0x3089705F#32) ?_
  exact Finset.sum_congr rfl fun k _ => by rw [idx8, weight_apply]

/-- The normalised weight at (b, h, q, k). -/
theorem prob_apply (b : Fin 256) (h : Fin 16) (q k : Fin 49) :
    val_main_v13 (F := Ideal) x0 x1 (ix4 b h q k)
      = Ideal.div (Cert.Attn.weight (mat x0 b h) (mat x1 b h) q k) (Cert.Attn.denom (mat x0 b h) (mat x1 b h) q) := by
  rw [val_main_v13_apply, val_main_v12_apply, idx12, denom_apply, weight_apply]
  rfl

/-- THE REFERENCE AT AN INDEX: entry (b, h, q, d) of its result is the attention of the (b, h) matrices. -/
theorem result_apply (b : Fin 256) (h : Fin 16) (q : Fin 49) (d : Fin 64) :
    val_main_v14 (F := Ideal) x0 x1 x2 (ix4 b h q d) = Cert.Attn.attn (mat x0 b h) (mat x1 b h) (mat x2 b h) q d := by
  rw [val_main_v14_apply]
  unfold Cert.Attn.attn
  exact Finset.sum_congr rfl fun k _ => by rw [lidx14, ridx14, prob_apply]

/-- THE REFERENCE'S RESULT ARRAY is `Attn.result` of its three arguments. -/
theorem result_eq : val_main_v14 (F := Ideal) x0 x1 x2 = Cert.Attn.result x0 x1 x2 := by
  funext i
  obtain ⟨b, h, q, d, rfl⟩ : ∃ (b : Fin 256) (h : Fin 16) (q : Fin 49) (d : Fin 64), i = ix4 b h q d := ⟨i 0, i 1, i 2, i 3, eq_ix4 i⟩
  exact result_apply x0 x1 x2 b h q d

end Cert.ReferenceIdeal.RefValue

end
-- ==== Proof.KernelOps.lean ====
/-
  The operations of the attention body that are not pointwise, each read at one index of its result, at the
  extended reals. A block is 256 (batch, head) rows of a 49 × 64 matrix, and every operation here acts inside one
  row `p`:
    the score product contracts the feature axis of queries and keys: entry (p, q, k) is ∑ d, a (p, q, d) · b (p, k, d);
    the output product contracts the key axis of weights and values: entry (p, q, d) is ∑ k, a (p, q, k) · b (p, k, d);
    the row maximum and the row sum run over the key axis of a (p, q, ·);
    the keep-dims cast puts entry (p, q) at (p, q, 0), and the lane broadcast copies (p, q, 0) to every (p, q, k).
-/
import proofs.«117145_j25056839205158_1_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.KernelIdeal.Ops

open Cert.KernelIdeal Cert.KernelIdeal.Gen Idealize.ShloMosaic Idealize.ShloMosaic.ValueIdx
open Facts₀ Facts

/-! ## The score product: queries against keys, the feature axis contracted -/

theorem qk_lhs_0 (i : S256x49x49.Idx) (r : dot_S256x49x64_S256x49x64_S256x49x49_2_2_1_1_0_0.contr.Idx) :
    (dot_S256x49x64_S256x49x64_S256x49x49_2_2_1_1_0_0.lhsIdx i r 0).val = (i 0).val := by
  unfold DotDims.lhsIdx
  rw [dif_pos (show (0 : Fin S256x49x64.rank) ∈ dot_S256x49x64_S256x49x64_S256x49x49_2_2_1_1_0_0.lhsBatch by decide)]
  rfl
theorem qk_lhs_1 (i : S256x49x49.Idx) (r : dot_S256x49x64_S256x49x64_S256x49x49_2_2_1_1_0_0.contr.Idx) :
    (dot_S256x49x64_S256x49x64_S256x49x49_2_2_1_1_0_0.lhsIdx i r 1).val = (i 1).val := by
  unfold DotDims.lhsIdx
  rw [dif_neg (show ¬(1 : Fin S256x49x64.rank) ∈ dot_S256x49x64_S256x49x64_S256x49x49_2_2_1_1_0_0.lhsBatch by decide), dif_pos (show (1 : Fin S256x49x64.rank) ∈ dot_S256x49x64_S256x49x64_S256x49x49_2_2_1_1_0_0.lhsNonContracting by decide)]
  rfl
theorem qk_lhs_2 (i : S256x49x49.Idx) (r : dot_S256x49x64_S256x49x64_S256x49x49_2_2_1_1_0_0.contr.Idx) :
    (dot_S256x49x64_S256x49x64_S256x49x49_2_2_1_1_0_0.lhsIdx i r 2).val = (r ⟨0, by decide⟩).val :=
  dot_S256x49x64_S256x49x64_S256x49x49_2_2_1_1_0_0.lhsIdx_val_of_single rfl i r
theorem qk_rhs_0 (i : S256x49x49.Idx) (r : dot_S256x49x64_S256x49x64_S256x49x49_2_2_1_1_0_0.contr.Idx) :
    (dot_S256x49x64_S256x49x64_S256x49x49_2_2_1_1_0_0.rhsIdx i r 0).val = (i 0).val := by
  unfold DotDims.rhsIdx
  rw [dif_pos (show (0 : Fin S256x49x64.rank) ∈ dot_S256x49x64_S256x49x64_S256x49x49_2_2_1_1_0_0.rhsBatch by decide)]
  rfl
theorem qk_rhs_1 (i : S256x49x49.Idx) (r : dot_S256x49x64_S256x49x64_S256x49x49_2_2_1_1_0_0.contr.Idx) :
    (dot_S256x49x64_S256x49x64_S256x49x49_2_2_1_1_0_0.rhsIdx i r 1).val = (i 2).val := by
  unfold DotDims.rhsIdx
  rw [dif_neg (show ¬(1 : Fin S256x49x64.rank) ∈ dot_S256x49x64_S256x49x64_S256x49x49_2_2_1_1_0_0.rhsBatch by decide), dif_pos (show (1 : Fin S256x49x64.rank) ∈ dot_S256x49x64_S256x49x64_S256x49x49_2_2_1_1_0_0.rhsNonContracting by decide)]
  rfl
theorem qk_rhs_2 (i : S256x49x49.Idx) (r : dot_S256x49x64_S256x49x64_S256x49x49_2_2_1_1_0_0.contr.Idx) :
    (dot_S256x49x64_S256x49x64_S256x49x49_2_2_1_1_0_0.rhsIdx i r 2).val = (r ⟨0, by decide⟩).val :=
  dot_S256x49x64_S256x49x64_S256x49x49_2_2_1_1_0_0.rhsIdx_val_of_single rfl i r

/-- Into a zero accumulator the score product at (p, q, k) is the dot product of query row (p, q) and key row (p, k). -/
theorem qk_apply {φ₁ φ₂ : FTy} (a : FVec Ideal S256x49x64 φ₁) (b : FVec Ideal S256x49x64 φ₂) (p : Fin 256) (q k : Fin 49) :
    matmul dot_S256x49x64_S256x49x64_S256x49x49_2_2_1_1_0_0 none a b (constant S256x49x49 .f32 0x00000000#32) (ix3 p q k)
      = ∑ d : Fin 64, a (ix3 p q d) * b (ix3 p k d) := by
  simp only [matmul]
  rw [Ideal.matmul_constant_zero_apply, ← Equiv.sum_comp (contrEquiv1 dot_S256x49x64_S256x49x64_S256x49x49_2_2_1_1_0_0 64 rfl rfl).symm]
  refine Finset.sum_congr rfl fun d _ => ?_
  have hd := contrEquiv1_symm_val dot_S256x49x64_S256x49x64_S256x49x49_2_2_1_1_0_0 64 rfl rfl d
  have el : dot_S256x49x64_S256x49x64_S256x49x49_2_2_1_1_0_0.lhsIdx (ix3 p q k) ((contrEquiv1 dot_S256x49x64_S256x49x64_S256x49x49_2_2_1_1_0_0 64 rfl rfl).symm d) = ix3 p q d := funext fun x => Fin.ext (by
    match x with
    | ⟨0, _⟩ => exact qk_lhs_0 _ _
    | ⟨1, _⟩ => exact qk_lhs_1 _ _
    | ⟨2, _⟩ => exact (qk_lhs_2 _ _).trans hd)
  have er : dot_S256x49x64_S256x49x64_S256x49x49_2_2_1_1_0_0.rhsIdx (ix3 p q k) ((contrEquiv1 dot_S256x49x64_S256x49x64_S256x49x49_2_2_1_1_0_0 64 rfl rfl).symm d) = ix3 p k d := funext fun x => Fin.ext (by
    match x with
    | ⟨0, _⟩ => exact qk_rhs_0 _ _
    | ⟨1, _⟩ => exact qk_rhs_1 _ _
    | ⟨2, _⟩ => exact (qk_rhs_2 _ _).trans hd)
  rw [el, er]

/-! ## The output product: weights against values, the key axis contracted -/

theorem pv_lhs_0 (i : S256x49x64.Idx) (r : dot_S256x49x49_S256x49x64_S256x49x64_2_1_1_2_0_0.contr.Idx) :
    (dot_S256x49x49_S256x49x64_S256x49x64_2_1_1_2_0_0.lhsIdx i r 0).val = (i 0).val := by
  unfold DotDims.lhsIdx
  rw [dif_pos (show (0 : Fin S256x49x49.rank) ∈ dot_S256x49x49_S256x49x64_S256x49x64_2_1_1_2_0_0.lhsBatch by decide)]
  rfl
theorem pv_lhs_1 (i : S256x49x64.Idx) (r : dot_S256x49x49_S256x49x64_S256x49x64_2_1_1_2_0_0.contr.Idx) :
    (dot_S256x49x49_S256x49x64_S256x49x64_2_1_1_2_0_0.lhsIdx i r 1).val = (i 1).val := by
  unfold DotDims.lhsIdx
  rw [dif_neg (show ¬(1 : Fin S256x49x49.rank) ∈ dot_S256x49x49_S256x49x64_S256x49x64_2_1_1_2_0_0.lhsBatch by decide), dif_pos (show (1 : Fin S256x49x49.rank) ∈ dot_S256x49x49_S256x49x64_S256x49x64_2_1_1_2_0_0.lhsNonContracting by decide)]
  rfl
theorem pv_lhs_2 (i : S256x49x64.Idx) (r : dot_S256x49x49_S256x49x64_S256x49x64_2_1_1_2_0_0.contr.Idx) :
    (dot_S256x49x49_S256x49x64_S256x49x64_2_1_1_2_0_0.lhsIdx i r 2).val = (r ⟨0, by decide⟩).val :=
  dot_S256x49x49_S256x49x64_S256x49x64_2_1_1_2_0_0.lhsIdx_val_of_single rfl i r
theorem pv_rhs_0 (i : S256x49x64.Idx) (r : dot_S256x49x49_S256x49x64_S256x49x64_2_1_1_2_0_0.contr.Idx) :
    (dot_S256x49x49_S256x49x64_S256x49x64_2_1_1_2_0_0.rhsIdx i r 0).val = (i 0).val := by
  unfold DotDims.rhsIdx
  rw [dif_pos (show (0 : Fin S256x49x64.rank) ∈ dot_S256x49x49_S256x49x64_S256x49x64_2_1_1_2_0_0.rhsBatch by decide)]
  rfl
theorem pv_rhs_1 (i : S256x49x64.Idx) (r : dot_S256x49x49_S256x49x64_S256x49x64_2_1_1_2_0_0.contr.Idx) :
    (dot_S256x49x49_S256x49x64_S256x49x64_2_1_1_2_0_0.rhsIdx i r 1).val = (r ⟨0, by decide⟩).val :=
  dot_S256x49x49_S256x49x64_S256x49x64_2_1_1_2_0_0.rhsIdx_val_of_single rfl i r
theorem pv_rhs_2 (i : S256x49x64.Idx) (r : dot_S256x49x49_S256x49x64_S256x49x64_2_1_1_2_0_0.contr.Idx) :
    (dot_S256x49x49_S256x49x64_S256x49x64_2_1_1_2_0_0.rhsIdx i r 2).val = (i 2).val := by
  unfold DotDims.rhsIdx
  rw [dif_neg (show ¬(2 : Fin S256x49x64.rank) ∈ dot_S256x49x49_S256x49x64_S256x49x64_2_1_1_2_0_0.rhsBatch by decide), dif_pos (show (2 : Fin S256x49x64.rank) ∈ dot_S256x49x49_S256x49x64_S256x49x64_2_1_1_2_0_0.rhsNonContracting by decide)]
  rfl

/-- Into a zero accumulator the output product at (p, q, d) is ∑ k of weight (p, q, k) times value (p, k, d). -/
theorem pv_apply {φ₁ φ₂ : FTy} (a : FVec Ideal S256x49x49 φ₁) (b : FVec Ideal S256x49x64 φ₂) (p : Fin 256) (q : Fin 49) (d : Fin 64) :
    matmul dot_S256x49x49_S256x49x64_S256x49x64_2_1_1_2_0_0 none a b (constant S256x49x64 .f32 0x00000000#32) (ix3 p q d)
      = ∑ k : Fin 49, a (ix3 p q k) * b (ix3 p k d) := by
  simp only [matmul]
  rw [Ideal.matmul_constant_zero_apply, ← Equiv.sum_comp (contrEquiv1 dot_S256x49x49_S256x49x64_S256x49x64_2_1_1_2_0_0 49 rfl rfl).symm]
  refine Finset.sum_congr rfl fun k _ => ?_
  have hk := contrEquiv1_symm_val dot_S256x49x49_S256x49x64_S256x49x64_2_1_1_2_0_0 49 rfl rfl k
  have el : dot_S256x49x49_S256x49x64_S256x49x64_2_1_1_2_0_0.lhsIdx (ix3 p q d) ((contrEquiv1 dot_S256x49x49_S256x49x64_S256x49x64_2_1_1_2_0_0 49 rfl rfl).symm k) = ix3 p q k := funext fun x => Fin.ext (by
    match x with
    | ⟨0, _⟩ => exact pv_lhs_0 _ _
    | ⟨1, _⟩ => exact pv_lhs_1 _ _
    | ⟨2, _⟩ => exact (pv_lhs_2 _ _).trans hk)
  have er : dot_S256x49x49_S256x49x64_S256x49x64_2_1_1_2_0_0.rhsIdx (ix3 p q d) ((contrEquiv1 dot_S256x49x49_S256x49x64_S256x49x64_2_1_1_2_0_0 49 rfl rfl).symm k) = ix3 p k d := funext fun x => Fin.ext (by
    match x with
    | ⟨0, _⟩ => exact pv_rhs_0 _ _
    | ⟨1, _⟩ => exact (pv_rhs_1 _ _).trans hk
    | ⟨2, _⟩ => exact pv_rhs_2 _ _)
  rw [el, er]

/-! ## The two reductions over the key axis -/

/-- The reduced index (p, q) with key coordinate `k` put back is (p, q, k). -/
theorem lift_key (h : S256x49x49.Reduces [2] S256x49) (p : Fin 256) (q k : Fin 49) :
    h.lift (ix2 p q) k = ix3 p q k :=
  funext fun x => Fin.ext (by match x with | ⟨0, _⟩ => rfl | ⟨1, _⟩ => rfl | ⟨2, _⟩ => rfl)

/-- The row maximum at (p, q): the fold of `max` from -∞ over the keys. -/
theorem rowMax_apply (v : FVec Ideal S256x49x49 .f32) (h : S256x49x49.Reduces [2] S256x49) (hφ : FKind.Formats .f32)
    (hacc : (0xFF800000#32 : BitVec 32) = FKind.maximumf.neutral .f32 hφ) (p : Fin 256) (q : Fin 49) :
    multiReduction .maximumf [2] S256x49 v 0xFF800000#32 h hφ hacc (ix2 p q)
      = (Finset.univ : Finset (Fin 49)).fold max (Ideal.ofBits .f32 0xFF800000#32) (fun k => v (ix3 p q k)) := by
  refine (Ideal.multiReduction_maximumf_single v _ h hφ hacc (ix2 p q)).trans ?_
  have e : (v ∘ h.lift (ix2 p q)) = fun k : Fin 49 => v (ix3 p q k) := funext fun k => congrArg v (lift_key h p q k)
  rw [e]
  rfl

/-- The row sum at (p, q): the sum over the keys. -/
theorem rowSum_apply (v : FVec Ideal S256x49x49 .f32) (h : S256x49x49.Reduces [2] S256x49) (hφ : FKind.Formats .f32)
    (hacc : (0x00000000#32 : BitVec 32) = FKind.add.neutral .f32 hφ) (p : Fin 256) (q : Fin 49) :
    multiReduction .add [2] S256x49 v 0x00000000#32 h hφ hacc (ix2 p q) = ∑ k : Fin 49, v (ix3 p q k) := by
  refine (Ideal.multiReduction_add_single v _ h hφ hacc (ix2 p q)).trans ?_
  exact Finset.sum_congr rfl fun k _ => congrArg v (lift_key h p q k)

/-! ## Keeping the reduced axis, and spreading it back over the keys -/

/-- The keep-dims cast: entry (p, q, 0) of the [256, 49, 1] view is entry (p, q). -/
theorem keepdims_apply {α : Type} (v : S256x49.Idx → α) (h : S256x49.ShapeCasts S256x49x1) (p : Fin 256) (q : Fin 49) (z : Fin 1) :
    shapeCast S256x49x1 v h (ix3 p q z) = v (ix2 p q) := by
  refine shapeCast_apply v h (ix3 p q z) (ix2 p q) ?_
  rw [Shape.rowMajor_val_two, Shape.rowMajor_val_three]
  show p.val * 49 + q.val = (p.val * 49 + q.val) * 1 + z.val
  omega

/-- The lane broadcast: every (p, q, k) reads (p, q, 0). -/
theorem lanes_apply {α : Type} (v : S256x49x1.Idx → α) (h : S256x49x1.Broadcasts S256x49x49) (p : Fin 256) (q k : Fin 49) :
    broadcastTo S256x49x49 v h (ix3 p q k) = v (ix3 p q 0) := by
  refine broadcastTo_apply v h (ix3 p q k) (ix3 p q 0) fun a => ?_
  match a with
  | ⟨0, _⟩ => show p.val = if (256 : Nat) = 1 then 0 else p.val; rw [if_neg (by decide)]
  | ⟨1, _⟩ => show q.val = if (49 : Nat) = 1 then 0 else q.val; rw [if_neg (by decide)]
  | ⟨2, _⟩ => show 0 = if (1 : Nat) = 1 then 0 else k.val; rw [if_pos rfl]

end Cert.KernelIdeal.Ops

end
-- ==== Proof.KernelPayload.lean ====
/-
  What the attention body stores, read at one index. With `x0`, `x1`, `x2` the query, key and value blocks
  (256 rows of a 49 × 64 matrix each), the stored block at (p, q, d) is `Attn.attn` of row `p` of the three blocks at
  (q, d): the narrowing to bf16 and the same-shape casts are the identity on extended reals, the two products are the
  sums of `KernelOps`, the maximum and the sum run over the keys of row (p, q), and the division is the exact one.
  The body is cut into its three intermediate blocks — the scaled scores, the softmax weights, the normalised
  weights — each named here and read at (p, q, k).
-/
import proofs.«117145_j25056839205158_1_alg».proof.Proof.Gen.KernelIdeal.Skeleton
import proofs.«117145_j25056839205158_1_alg».proof.Proof.AttnSpec
import proofs.«117145_j25056839205158_1_alg».proof.Proof.KernelOps

noncomputable section

open scoped BigOperators

namespace Cert.KernelIdeal.Payload

open Cert.KernelIdeal Cert.KernelIdeal.Gen Cert.KernelIdeal.Ops Idealize.ShloMosaic Idealize.ShloMosaic.ValueIdx

/-- Row `p` of a block, as a 49 × 64 matrix. -/
abbrev row (x : Vec Ideal S256x49x64 .f32) (p : Fin 256) : Fin 49 → Fin 64 → EReal := fun r d => x (ix3 p r d)

/-- A loaded block as the products consume it: cast to its own shape, narrowed to bf16. -/
def operand (x : Vec Ideal S256x49x64 .f32) : FVec Ideal S256x49x64 .bf16 :=
  truncf .bf16 (shapeCast S256x49x64 x shapeCasts_S256x49x64_S256x49x64) bitsLt_bf16_f32

/-- Neither step changes an entry. -/
theorem operand_apply (x : Vec Ideal S256x49x64 .f32) (i : S256x49x64.Idx) : operand x i = x i :=
  congrFun (shapeCast_self x shapeCasts_S256x49x64_S256x49x64) i

/-- The scaled scores of a block: Q·Kᵀ per row, times 1/8. -/
def scoresBlk (x0 x1 : Vec Ideal S256x49x64 .f32) : FVec Ideal S256x49x49 .f32 :=
  mulf (matmul dot_S256x49x64_S256x49x64_S256x49x49_2_2_1_1_0_0 none (operand x0) (operand x1) (constant S256x49x49 .f32 0x00000000#32))
    (broadcast S256x49x49 (Scalar.ofBits .f32 0x3E000000#32))

/-- The largest score of each (p, q), kept as a [256, 49, 1] block. -/
def maxBlk (x0 x1 : Vec Ideal S256x49x64 .f32) : FVec Ideal S256x49x1 .f32 :=
  shapeCast S256x49x1 (multiReduction .maximumf [2] S256x49 (scoresBlk x0 x1) 0xFF800000#32 reduces_S256x49x49_S256x49 (.inl rfl) rfl)
    shapeCasts_S256x49_S256x49x1

/-- The softmax weights before normalising: exp (score - row maximum). -/
def weightsBlk (x0 x1 : Vec Ideal S256x49x64 .f32) : FVec Ideal S256x49x49 .f32 :=
  exp (subf (scoresBlk x0 x1) (broadcastTo S256x49x49 (maxBlk x0 x1) broadcasts_S256x49x1_S256x49x49))

/-- The guarded normaliser of each (p, q), kept as a [256, 49, 1] block. -/
def denomBlk (x0 x1 : Vec Ideal S256x49x64 .f32) : FVec Ideal S256x49x1 .f32 :=
  addf (shapeCast S256x49x1 (multiReduction .add [2] S256x49 (weightsBlk x0 x1) 0x00000000#32 reduces_S256x49x49_S256x49 (.inl rfl) rfl)
      shapeCasts_S256x49_S256x49x1)
    (broadcast S256x49x1 (Scalar.ofBits .f32 0x3089705F#32))

/-- The normalised weights. -/
def probsBlk (x0 x1 : Vec Ideal S256x49x64 .f32) : FVec Ideal S256x49x49 .f32 :=
  divf (weightsBlk x0 x1) (broadcastTo S256x49x49 (denomBlk x0 x1) broadcasts_S256x49x1_S256x49x49)

/-- The stored block is the product of the normalised weights with the values. -/
theorem pay_eq (x0 x1 x2 : Vec Ideal S256x49x64 .f32) :
    k0_pay1 (F := Ideal) x0 x1 x2
      = matmul dot_S256x49x49_S256x49x64_S256x49x64_2_1_1_2_0_0 none (truncf .bf16 (probsBlk x0 x1) bitsLt_bf16_f32) (operand x2)
          (constant S256x49x64 .f32 0x00000000#32) := rfl

/-- The scaled score at (p, q, k) is the score of query row q against key row k of row p. -/
theorem scoresBlk_apply (x0 x1 : Vec Ideal S256x49x64 .f32) (p : Fin 256) (q k : Fin 49) :
    scoresBlk x0 x1 (ix3 p q k) = Cert.Attn.score (row x0 p) (row x1 p) q k := by
  unfold scoresBlk Cert.Attn.score
  show matmul dot_S256x49x64_S256x49x64_S256x49x49_2_2_1_1_0_0 none (operand x0) (operand x1) (constant S256x49x49 .f32 0x00000000#32) (ix3 p q k)
      * Ideal.ofBits .f32 0x3E000000#32 = _
  refine congrArg (· * Ideal.ofBits .f32 0x3E000000#32) ?_
  refine (qk_apply (operand x0) (operand x1) p q k).trans ?_
  exact Finset.sum_congr rfl fun d _ => by rw [operand_apply, operand_apply]

/-- The kept maximum at (p, q, 0) is the row maximum of (p, q). -/
theorem maxBlk_apply (x0 x1 : Vec Ideal S256x49x64 .f32) (p : Fin 256) (q : Fin 49) (z : Fin 1) :
    maxBlk x0 x1 (ix3 p q z) = Cert.Attn.rowMax (row x0 p) (row x1 p) q := by
  unfold maxBlk Cert.Attn.rowMax
  refine (keepdims_apply _ shapeCasts_S256x49_S256x49x1 p q z).trans ?_
  refine (rowMax_apply (scoresBlk x0 x1) reduces_S256x49x49_S256x49 (.inl rfl) rfl p q).trans ?_
  exact congrArg (fun f : Fin 49 → EReal => (Finset.univ : Finset (Fin 49)).fold max (Ideal.ofBits .f32 0xFF800000#32) f)
    (funext fun k => scoresBlk_apply x0 x1 p q k)

/-- The weight at (p, q, k). -/
theorem weightsBlk_apply (x0 x1 : Vec Ideal S256x49x64 .f32) (p : Fin 256) (q k : Fin 49) :
    weightsBlk x0 x1 (ix3 p q k) = Cert.Attn.weight (row x0 p) (row x1 p) q k := by
  unfold weightsBlk Cert.Attn.weight
  show Ideal.exp (scoresBlk x0 x1 (ix3 p q k) - broadcastTo S256x49x49 (maxBlk x0 x1) broadcasts_S256x49x1_S256x49x49 (ix3 p q k)) = _
  rw [lanes_apply (maxBlk x0 x1) broadcasts_S256x49x1_S256x49x49 p q k, maxBlk_apply, scoresBlk_apply]

/-- The kept normaliser at (p, q, 0). -/
theorem denomBlk_apply (x0 x1 : Vec Ideal S256x49x64 .f32) (p : Fin 256) (q : Fin 49) (z : Fin 1) :
    denomBlk x0 x1 (ix3 p q z) = Cert.Attn.denom (row x0 p) (row x1 p) q := by
  unfold denomBlk Cert.Attn.denom
  show shapeCast S256x49x1 (multiReduction .add [2] S256x49 (weightsBlk x0 x1) 0x00000000#32 reduces_S256x49x49_S256x49 (.inl rfl) rfl)
      shapeCasts_S256x49_S256x49x1 (ix3 p q z) + Ideal.ofBits .f32 0x3089705F#32 = _
  refine congrArg (· + Ideal.ofBits .f32 0x3089705F#32) ?_
  refine (keepdims_apply _ shapeCasts_S256x49_S256x49x1 p q z).trans ?_
  refine (rowSum_apply (weightsBlk x0 x1) reduces_S256x49x49_S256x49 (.inl rfl) rfl p q).trans ?_
  exact Finset.sum_congr rfl fun k _ => weightsBlk_apply x0 x1 p q k

/-- The normalised weight at (p, q, k). -/
theorem probsBlk_apply (x0 x1 : Vec Ideal S256x49x64 .f32) (p : Fin 256) (q k : Fin 49) :
    probsBlk x0 x1 (ix3 p q k)
      = Ideal.div (Cert.Attn.weight (row x0 p) (row x1 p) q k) (Cert.Attn.denom (row x0 p) (row x1 p) q) := by
  unfold probsBlk
  show Ideal.div (weightsBlk x0 x1 (ix3 p q k)) (broadcastTo S256x49x49 (denomBlk x0 x1) broadcasts_S256x49x1_S256x49x49 (ix3 p q k)) = _
  rw [lanes_apply (denomBlk x0 x1) broadcasts_S256x49x1_S256x49x49 p q k, denomBlk_apply, weightsBlk_apply]

/-- THE PAYLOAD AT AN INDEX: entry (p, q, d) of what the body stores is the attention of row `p` of its three blocks. -/
theorem pay_apply (x0 x1 x2 : Vec Ideal S256x49x64 .f32) (p : Fin 256) (q : Fin 49) (d : Fin 64) :
    k0_pay1 (F := Ideal) x0 x1 x2 (ix3 p q d) = Cert.Attn.attn (row x0 p) (row x1 p) (row x2 p) q d := by
  rw [pay_eq]
  refine (pv_apply (truncf .bf16 (probsBlk x0 x1) bitsLt_bf16_f32) (operand x2) p q d).trans ?_
  unfold Cert.Attn.attn
  refine Finset.sum_congr rfl fun k _ => ?_
  show probsBlk x0 x1 (ix3 p q k) * operand x2 (ix3 p k d) = _
  rw [probsBlk_apply, operand_apply]

end Cert.KernelIdeal.Payload

end
-- ==== Proof.KernelArray.lean ====
/-
  From the blocks to the arrays. The kernel's @main flattens (batch, head) — row (b, h) of a [256, 16, 49, 64]
  argument is row 16·b + h of the [4096, 49, 64] array the region reads —, runs the region over 16 grid points, point
  `t` handling rows 256·t … 256·t + 255, and unflattens the result. Here:
    * what point `t` writes back is block `t` of ONE whole-array function `attnRows` of the three flattened arrays
      (row P of the result is the attention of row P of the three), because row `p` of each input block at `t` is
      row 256·t + p of its array and the body acts row by row;
    * the 16 blocks tile the [4096, 49, 64] result, so after the region the result array IS `attnRows`;
    * the reshapes before and after the region move row (b, h) to row 16·b + h and back, so @main's result is
      `Attn.result` of the three arguments.
-/
import proofs.«117145_j25056839205158_1_alg».proof.Proof.Gen.KernelIdeal.Frame
import proofs.«117145_j25056839205158_1_alg».proof.Proof.KernelPayload
import Idealize.ShloMosaic.Lib.Pipeline.Value
import Idealize.ShloMosaic.Lib.StableHlo.Run

set_option maxRecDepth 16384

noncomputable section

open scoped BigOperators

namespace Cert.KernelIdeal.ArrayValue

open Cert.KernelIdeal Cert.KernelIdeal.Gen Cert.KernelIdeal.Payload Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The whole-array function of the flattened arrays -/

/-- Row `P` of the flattened result is the attention of row `P` of the three flattened arrays. -/
def attnRows (A0 A1 A2 : S4096x49x64.Idx → EReal) : S4096x49x64.Idx → EReal := fun i =>
  Cert.Attn.attn (fun r d => A0 (ix3 (i 0) r d)) (fun r d => A1 (ix3 (i 0) r d)) (fun r d => A2 (ix3 (i 0) r d)) (i 1) (i 2)

/-- The stored block at (p, q, d) is `attnRows` at (P, q, d) as soon as row `p` of each block is row `P` of its array. -/
theorem pay_at_row (A0 A1 A2 : S4096x49x64.Idx → EReal) (x0 x1 x2 : Vec Ideal S256x49x64 .f32) (p : Fin 256) (P : Fin 4096)
    (h0 : ∀ r d, x0 (ix3 p r d) = A0 (ix3 P r d)) (h1 : ∀ r d, x1 (ix3 p r d) = A1 (ix3 P r d))
    (h2 : ∀ r d, x2 (ix3 p r d) = A2 (ix3 P r d)) (q : Fin 49) (d : Fin 64) :
    k0_pay1 (F := Ideal) x0 x1 x2 (ix3 p q d) = attnRows A0 A1 A2 (ix3 P q d) := by
  rw [pay_apply]
  exact Cert.Attn.attn_congr h0 h1 h2 q d

/-! ## Where the blocks lie -/

theorem hz : (![0, 0, 0] : Fin 3 → Nat) = fun _ => 0 := funext fun a => by fin_cases a <;> rfl

/-- The printed index maps over the grid: all four windows move together along the row axis and stay at 0 on the
    other two; there are 16 row blocks. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) = 0 ∧ win0_3.index t (2 : Fin 3) = 0 :=
  (by decide +kernel : ∀ t : Fin grid0.N, _)

/-- Every one of the 16 row blocks is some point's. -/
theorem idx_onto : ∀ q0 : Fin 16, ∃ t : Fin cfg0.N, win0_3.index t = ![q0.val, 0, 0] :=
  (by decide +kernel : ∀ q0 : Fin 16, ∃ t : Fin grid0.N, win0_3.index t = ![q0.val, 0, 0])

/-- Row `p` of the query block at point `t` is row 256·(block index) + p of the flattened query array. -/
theorem iblk0_row (c : Dev nD) (t : Fin cfg0.N) (p : Fin 256) (P : Fin 4096) (hP : P.val = win0_3.index t (0 : Fin 3) * 256 + p.val)
    (r : Fin 49) (d : Fin 64) :
    (iblk m c 0 t : Vec Ideal S256x49x64 .f32) (ix3 p r d) = (V m c main_v0 : S4096x49x64.Idx → EReal) (ix3 P r d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 256 + 1 * p.val = P.val; omega
  | ⟨1, _⟩ => show win0_0.index t (1 : Fin 3) * 49 + 1 * r.val = r.val; omega
  | ⟨2, _⟩ => show win0_0.index t (2 : Fin 3) * 64 + 1 * d.val = d.val; omega

/-- The same for the key block. -/
theorem iblk1_row (c : Dev nD) (t : Fin cfg0.N) (p : Fin 256) (P : Fin 4096) (hP : P.val = win0_3.index t (0 : Fin 3) * 256 + p.val)
    (r : Fin 49) (d : Fin 64) :
    (iblk m c 1 t : Vec Ideal S256x49x64 .f32) (ix3 p r d) = (V m c main_v1 : S4096x49x64.Idx → EReal) (ix3 P r d) := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 256 + 1 * p.val = P.val; omega
  | ⟨1, _⟩ => show win0_1.index t (1 : Fin 3) * 49 + 1 * r.val = r.val; omega
  | ⟨2, _⟩ => show win0_1.index t (2 : Fin 3) * 64 + 1 * d.val = d.val; omega

/-- The same for the value block. -/
theorem iblk2_row (c : Dev nD) (t : Fin cfg0.N) (p : Fin 256) (P : Fin 4096) (hP : P.val = win0_3.index t (0 : Fin 3) * 256 + p.val)
    (r : Fin 49) (d : Fin 64) :
    (iblk m c 2 t : Vec Ideal S256x49x64 .f32) (ix3 p r d) = (V m c main_v2 : S4096x49x64.Idx → EReal) (ix3 P r d) := by
  obtain ⟨-, -, -, -, -, -, e0, e1, e2, -⟩ := idx_facts t
  unfold iblk
  rw [View.read_apply]
  show V m c main_v2 _ = V m c main_v2 _
  congr 1
  funext a
  apply Fin.ext
  match a with
  | ⟨0, _⟩ => show win0_2.index t (0 : Fin 3) * 256 + 1 * p.val = P.val; omega
  | ⟨1, _⟩ => show win0_2.index t (1 : Fin 3) * 49 + 1 * r.val = r.val; omega
  | ⟨2, _⟩ => show win0_2.index t (2 : Fin 3) * 64 + 1 * d.val = d.val; omega

/-! ## What a point writes back, and the array after the region -/

/-- WHAT POINT `t` WRITES BACK is block `t` of `attnRows` of the three flattened arrays as the region finds them. -/
theorem flushed3_eq (c : Dev nD) (t : Fin cfg0.N) :
    (dats m 0 c).flushed 3 t
      = ((cfg0.win 3).blk t).view.read (Elt Ideal) (attnRows (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S256x49x64) hz]
  obtain ⟨-, -, -, -, -, -, -, -, -, e9, e10, e11⟩ := idx_facts t
  funext j
  have hj0 : (j 0).val < 256 := (j 0).isLt
  have hlt : win0_3.index t (0 : Fin 3) * 256 + (j 0).val < 4096 := by omega
  show k0_pay1 (F := Ideal) (iblk m c 0 t) (iblk m c 1 t) (iblk m c 2 t) j
      = attnRows (V m c main_v0) (V m c main_v1) (V m c main_v2) (((cfg0.win 3).blk t).view.emb j)
  have hE : ((cfg0.win 3).blk t).view.emb j
      = ix3 (⟨win0_3.index t (0 : Fin 3) * 256 + (j 0).val, hlt⟩ : Fin 4096) (j 1) (j 2) := by
    funext a
    apply Fin.ext
    match a with
    | ⟨0, _⟩ => show win0_3.index t (0 : Fin 3) * 256 + 1 * (j 0).val = win0_3.index t (0 : Fin 3) * 256 + (j 0).val; omega
    | ⟨1, _⟩ => show win0_3.index t (1 : Fin 3) * 49 + 1 * (j 1).val = (j 1).val; omega
    | ⟨2, _⟩ => show win0_3.index t (2 : Fin 3) * 64 + 1 * (j 2).val = (j 2).val; omega
  refine (congrArg (k0_pay1 (F := Ideal) (iblk m c 0 t) (iblk m c 1 t) (iblk m c 2 t)) (eq_ix3 j)).trans ?_
  refine (pay_at_row (V m c main_v0) (V m c main_v1) (V m c main_v2) (iblk m c 0 t) (iblk m c 1 t) (iblk m c 2 t) (j 0)
    ⟨win0_3.index t (0 : Fin 3) * 256 + (j 0).val, hlt⟩
    (fun r d => iblk0_row m c t (j 0) _ rfl r d) (fun r d => iblk1_row m c t (j 0) _ rfl r d) (fun r d => iblk2_row m c t (j 0) _ rfl r d)
    (j 1) (j 2)).trans ?_
  exact (congrArg (attnRows (V m c main_v0) (V m c main_v1) (V m c main_v2)) hE).symm

/-- An index of the result array is in point `t`'s block iff each coordinate is in the block's range on its axis. -/
theorem mem_blk3 (t : Fin cfg0.N) (i : S4096x49x64.Idx) :
    i ∈ ((cfg0.win 3).blk t).view.set
      ↔ ∀ a : Fin 3, win0_3.index t a * S256x49x64.size a ≤ (i a).val ∧ (i a).val < win0_3.index t a * S256x49x64.size a + S256x49x64.size a := by
  show i ∈ ((View.whole main_v3).slice (win0_3.rect t)).set ↔ _
  rw [View.set_slice_whole, Rect.mem_set_unit]
  exact Iff.rfl

/-- The 16 blocks tile the result array: row `P` lies in block `P / 256`. -/
theorem cover3 (i : S4096x49x64.Idx) : ∃ t : Fin cfg0.N, (cfg0.win 3).flush t = true ∧ i ∈ ((cfg0.win 3).blk t).view.set := by
  have hi0 : (i 0).val < 4096 := (i 0).isLt
  have hi1 : (i 1).val < 49 := (i 1).isLt
  have hi2 : (i 2).val < 64 := (i 2).isLt
  obtain ⟨t, ht⟩ := idx_onto ⟨(i 0).val / 256, by omega⟩
  have q0 : win0_3.index t (0 : Fin 3) = (i 0).val / 256 := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 49 ≤ (i 1).val ∧ (i 1).val < win0_3.index t (1 : Fin 3) * 49 + 49; omega
  | ⟨2, _⟩ => show win0_3.index t (2 : Fin 3) * 64 ≤ (i 2).val ∧ (i 2).val < win0_3.index t (2 : Fin 3) * 64 + 64; omega

/-- THE RESULT ARRAY after the region: `attnRows` of the three flattened arrays. -/
theorem final3 (c : Dev nD) :
    (dats m 0 c).arrAt 3 cfg0.N = attnRows (V m c main_v0) (V m c main_v1) (V m c main_v2) :=
  (dats m 0 c).arrAt_eq_of_cover 3 (attnRows (V m c main_v0) (V m c main_v1) (V m c main_v2)) (fun t _ => flushed3_eq m c t) cover3

end Cert.KernelIdeal.ArrayValue

end
-- ==== Proof.KernelRun.lean ====
/-
  The kernel's @main, read. Before the region each [256, 16, 49, 64] argument is reshaped to [4096, 49, 64]; a reshape
  keeps the row-major position, so row 16·b + h of the flattened array is the (b, h) matrix of the argument. After the
  region the [4096, 49, 64] result is reshaped back, so entry (b, h, q, d) of @main's result is entry (16·b + h, q, d) of
  the region's result array — which is `attnRows` of the flattened arguments, i.e. the attention of their rows
  16·b + h, i.e. of the arguments' (b, h) matrices: `Attn.result`.
-/
import proofs.«117145_j25056839205158_1_alg».proof.Proof.KernelArray

set_option maxRecDepth 16384

noncomputable section

open scoped BigOperators

namespace Cert.KernelIdeal.ArrayValue

open Cert.KernelIdeal Cert.KernelIdeal.Gen Cert.KernelIdeal.Payload Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## The two reshapes at an index -/

/-- Flattening (batch, head): row `P` = 16·b + h of the flattened array is the (b, h) matrix. -/
theorem flatten_apply {α : Type} (A : S256x16x49x64.Idx → α) (hc : S256x16x49x64.ShapeCasts S4096x49x64) (b : Fin 256) (h : Fin 16)
    (P : Fin 4096) (hP : P.val = b.val * 16 + h.val) (r : Fin 49) (d : Fin 64) :
    shapeCast S4096x49x64 A hc (ix3 P r d) = A (ix4 b h r d) := by
  refine shapeCast_apply A hc (ix3 P r d) (ix4 b h r d) ?_
  rw [Shape.rowMajor_val_three, Shape.rowMajor_val_four]
  show ((b.val * 16 + h.val) * 49 + r.val) * 64 + d.val = (P.val * 49 + r.val) * 64 + d.val
  rw [hP]

/-- Unflattening: the (b, h) matrix of the result is row 16·b + h of the flattened one. -/
theorem unflatten_apply {α : Type} (B : S4096x49x64.Idx → α) (hc : S4096x49x64.ShapeCasts S256x16x49x64) (b : Fin 256) (h : Fin 16)
    (P : Fin 4096) (hP : P.val = b.val * 16 + h.val) (r : Fin 49) (d : Fin 64) :
    shapeCast S256x16x49x64 B hc (ix4 b h r d) = B (ix3 P r d) := by
  refine shapeCast_apply B hc (ix4 b h r d) (ix3 P r d) ?_
  rw [Shape.rowMajor_val_three, Shape.rowMajor_val_four]
  show (P.val * 49 + r.val) * 64 + d.val = ((b.val * 16 + h.val) * 49 + r.val) * 64 + d.val
  rw [hP]

/-! ## The arrays the region finds -/

/-- The flattened query array is the reshape of the first argument as launched. -/
theorem V_main_v0 (c : Dev nD) : (V m c main_v0 : S4096x49x64.Idx → EReal)
    = shapeCast S4096x49x64 (m ((c : Thread nD τ).loc main_arg0)) shapeCasts_S256x16x49x64_S4096x49x64 := by
  show StableHlo.after hostOps0 (fun b => m (c, b)) (Proc.devRef .tc main_v0) = _
  after_results
  rfl
/-- The flattened key array is the reshape of the second argument. -/
theorem V_main_v1 (c : Dev nD) : (V m c main_v1 : S4096x49x64.Idx → EReal)
    = shapeCast S4096x49x64 (m ((c : Thread nD τ).loc main_arg1)) shapeCasts_S256x16x49x64_S4096x49x64 := by
  show StableHlo.after hostOps0 (fun b => m (c, b)) (Proc.devRef .tc main_v1) = _
  after_results
  rfl
/-- The flattened value array is the reshape of the third argument. -/
theorem V_main_v2 (c : Dev nD) : (V m c main_v2 : S4096x49x64.Idx → EReal)
    = shapeCast S4096x49x64 (m ((c : Thread nD τ).loc main_arg2)) shapeCasts_S256x16x49x64_S4096x49x64 := by
  show StableHlo.after hostOps0 (fun b => m (c, b)) (Proc.devRef .tc main_v2) = _
  after_results
  rfl

/-! ## @main's result -/

/-- After the line that follows the region, @main's result buffer holds the reshape of the region's result array. -/
theorem tail_v4 (c : Dev nD) : (Pipeline.afterTail₀ cfgs (dats m) 0 (V0 m) [hostOps1] c main_v4 : S256x16x49x64.Idx → EReal)
    = shapeCast S256x16x49x64 ((dats m 0 c).arrAt 3 cfg0.N) shapeCasts_S4096x49x64_S256x16x49x64 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  funext i
  show shapeCast S256x16x49x64 (Pipeline.withArrays (cfgs 0).spec c (V0 m c) (fun w => (dats m 0 c).arrAt w (cfgs 0).N) (Proc.devRef .tc main_v3))
      shapeCasts_S4096x49x64_S256x16x49x64 i = _
  rw [e]

/-- @MAIN'S RESULT is `Attn.result` of the three arguments as launched. -/
theorem result_eq (c : Dev nD) :
    (Pipeline.afterTail₀ cfgs (dats m) 0 (V0 m) [hostOps1] c main_v4 : S256x16x49x64.Idx → EReal)
      = Cert.Attn.result (m ((c : Thread nD τ).loc main_arg0)) (m ((c : Thread nD τ).loc main_arg1)) (m ((c : Thread nD τ).loc main_arg2)) := by
  rw [tail_v4, final3]
  funext i
  obtain ⟨b, h, q, d, rfl⟩ : ∃ (b : Fin 256) (h : Fin 16) (q : Fin 49) (d : Fin 64), i = ix4 b h q d := ⟨i 0, i 1, i 2, i 3, eq_ix4 i⟩
  have hlt : b.val * 16 + h.val < 4096 := by have := b.isLt; have := h.isLt; omega
  refine (unflatten_apply _ shapeCasts_S4096x49x64_S256x16x49x64 b h ⟨b.val * 16 + h.val, hlt⟩ rfl q d).trans ?_
  unfold attnRows Cert.Attn.result
  refine Cert.Attn.attn_congr (fun r e => ?_) (fun r e => ?_) (fun r e => ?_) q d
  · show (V m c main_v0 : S4096x49x64.Idx → EReal) (ix3 ⟨b.val * 16 + h.val, hlt⟩ r e) = _
    rw [V_main_v0]
    exact flatten_apply _ shapeCasts_S256x16x49x64_S4096x49x64 b h ⟨b.val * 16 + h.val, hlt⟩ rfl r e
  · show (V m c main_v1 : S4096x49x64.Idx → EReal) (ix3 ⟨b.val * 16 + h.val, hlt⟩ r e) = _
    rw [V_main_v1]
    exact flatten_apply _ shapeCasts_S256x16x49x64_S4096x49x64 b h ⟨b.val * 16 + h.val, hlt⟩ rfl r e
  · show (V m c main_v2 : S4096x49x64.Idx → EReal) (ix3 ⟨b.val * 16 + h.val, hlt⟩ r e) = _
    rw [V_main_v2]
    exact flatten_apply _ shapeCasts_S256x16x49x64_S4096x49x64 b h ⟨b.val * 16 + h.val, hlt⟩ rfl r e

/-- THE KERNEL'S RUN, READ: every weakly fair execution terminates with @main's result at `Attn.result` of the
    arguments, and the arguments unchanged. -/
theorem run : θ_run defs (onTc (τ := τ) (main (F := Ideal))) ⟨m, fun _ => 0, ρ⟩ fun r => ∀ c : Dev nD,
      r.2.mem ((c : Thread nD τ).loc main_v4)
        = Cert.Attn.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue

end
-- ==== Proof.lean ====
/-
  Scaled-dot-product attention with a guarded softmax, a Pallas kernel against its jnp reference, over the
  extended reals.

  Both programs take q, k, v : f32[256, 16, 49, 64] and compute, for each (batch, head) pair (b, h), with Q, K, V the
  49 × 64 matrices of that pair,
      out[b, h, q, d] = ∑ₖ ( exp(s q k − maxₖ' s q k') / (∑ₖ' exp(s q k' − maxₖ'' s q k'') + ε) ) · V k d,
      s q k = (∑_d Q q d · K k d) · 1/8,
  with the same three f32 literals (1/8, −∞ as the start of the maximum, ε ≈ 1e-9). This is `Attn.result` (AttnSpec).

  The reference computes it with two batched `dot_general`s, a max-reduce and an add-reduce over the key axis and
  broadcasts in between (RefIsAttn: each stage read at an index). The kernel flattens (b, h) to one axis of 4096 rows,
  grids over 16 blocks of 256 rows, and in each block narrows the operands to bf16 (the identity on extended reals),
  multiplies, reduces and divides row by row (KernelOps, KernelPayload: the stored block at an index), so that the
  region's result array is one whole-array function of the flattened arguments (KernelArray: the 16 blocks tile it),
  and reshapes back (KernelRun). No algebraic law is needed beyond reading each sum and each maximum over the same
  index set on both sides, so the finiteness of the inputs is never used.

  The three frames: the two kernels' are the generated class-A frames; the reference's is its generated run with the
  result dropped. The idealization rewrote nothing, so `preserves` is `True`.
-/
import proofs.«117145_j25056839205158_1_alg».proof.Defs
import proofs.«117145_j25056839205158_1_alg».proof.Proof.Gen.Kernel
import proofs.«117145_j25056839205158_1_alg».proof.Proof.Gen.Kernel.Skeleton
import proofs.«117145_j25056839205158_1_alg».proof.Proof.Gen.Kernel.Launch
import proofs.«117145_j25056839205158_1_alg».proof.Proof.Gen.Kernel.Points
import proofs.«117145_j25056839205158_1_alg».proof.Proof.Gen.Kernel.Frame
import proofs.«117145_j25056839205158_1_alg».proof.Proof.Gen.KernelIdeal
import proofs.«117145_j25056839205158_1_alg».proof.Proof.Gen.KernelIdeal.Skeleton
import proofs.«117145_j25056839205158_1_alg».proof.Proof.Gen.KernelIdeal.Launch
import proofs.«117145_j25056839205158_1_alg».proof.Proof.Gen.KernelIdeal.Points
import proofs.«117145_j25056839205158_1_alg».proof.Proof.Gen.KernelIdeal.Frame
import proofs.«117145_j25056839205158_1_alg».proof.Proof.Gen.ReferenceIdeal
import proofs.«117145_j25056839205158_1_alg».proof.Proof.Gen.Pre_finite_inputs
import proofs.«117145_j25056839205158_1_alg».proof.Proof.Gen.ReferenceIdeal.Run
import proofs.«117145_j25056839205158_1_alg».proof.Proof.Gen.ReferenceIdeal.Read
import proofs.«117145_j25056839205158_1_alg».proof.Proof.RefIsAttn
import proofs.«117145_j25056839205158_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on q, k and v, the kernel ends with its result at `Attn.result` of its arguments and
    the reference with its result at `Attn.result` of its own, which are the same three arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
